-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S16384x4096 : Shape := ⟨2, ![16384, 4096]⟩
abbrev S16384 : Shape := ⟨1, ![16384]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8x2048x4096 .f32) (main_arg1 : IVec S16384x4096 32) (main_arg2 : FVec F S16384 .f32) (main_arg3 : FVec F S16384 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8x2048x4096 : Shape := ⟨3, ![8, 2048, 4096]⟩
abbrev S16384x4096 : Shape := ⟨2, ![16384, 4096]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S2048x4096 : Shape := ⟨2, ![2048, 4096]⟩
abbrev S256x4096 : Shape := ⟨2, ![256, 4096]⟩
abbrev S256x1 : Shape := ⟨2, ![256, 1]⟩
abbrev S1x256 : Shape := ⟨2, ![1, 256]⟩
abbrev S2048x256 : Shape := ⟨2, ![2048, 256]⟩
abbrev S8x2048x16384 : Shape := ⟨3, ![8, 2048, 16384]⟩

abbrev nBuf : Space → Nat
  | .hbm => 10
  | .vmem => 9
  | .smem => 0
  | _ => 0

abbrev bufTy : (tb : Table) → Fin (tcTables nBuf tb) → BufTy
  | .hbm, ⟨0, _⟩ => ⟨S8x2048x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S16384x4096, .f32⟩
  | .hbm, ⟨5, _⟩ => ⟨S16384x4096, .bf16⟩
  | .hbm, ⟨6, _⟩ => ⟨S16384x1, .f32⟩
  | .hbm, ⟨7, _⟩ => ⟨S1x16384, .f32⟩
  | .hbm, ⟨8, _⟩ => ⟨S16384x16384, .f32⟩
  | .hbm, ⟨9, _⟩ => ⟨S8x2048x16384, .f32⟩
  | .local _ .vmem, ⟨0, _⟩ => ⟨S2048x4096, .bf16⟩
  | .local _ .vmem, ⟨1, _⟩ => ⟨S256x4096, .i32⟩
  | .local _ .vmem, ⟨2, _⟩ => ⟨S256x4096, .i32⟩
  | .local _ .vmem, ⟨3, _⟩ => ⟨S256x1, .f32⟩
  | .local _ .vmem, ⟨4, _⟩ => ⟨S256x1, .f32⟩
  | .local _ .vmem, ⟨5, _⟩ => ⟨S1x256, .f32⟩
  | .local _ .vmem, ⟨6, _⟩ => ⟨S1x256, .f32⟩
  | .local _ .vmem, ⟨7, _⟩ => ⟨S2048x256, .f32⟩
  | .local _ .vmem, ⟨8, _⟩ => ⟨S2048x256, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8x2048x4096_S16384x4096 : S8x2048x4096.ShapeCasts S16384x4096
  bitsLt_bf16_f32 : FTy.bits .bf16 < FTy.bits .f32
  shapeCasts_S16384_S16384x1 : S16384.ShapeCasts S16384x1
  shapeCasts_S16384_S1x16384 : S16384.ShapeCasts S1x16384
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S16384x16384_S8x2048x16384 : S16384x16384.ShapeCasts S8x2048x16384
  dot_S2048x4096_S256x4096_S2048x256_1_1_0_0_n_n_wf : DotDims.WF S2048x4096 S256x4096 S2048x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S16384x4096.size a
  hwx0_0 : ∀ i : grid0.Coords, EltTy.bits .bf16 = 32 ∨ (Rect.block (s := S16384x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .i32 = 32 ∨ (Rect.block (s := S16384x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .f32 = 32 ∨ (Rect.block (s := S16384x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x16384.size a
  hwx0_3 : ∀ i : grid0.Coords, EltTy.bits .f32 = 32 ∨ (Rect.block (s := S1x16384) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S16384x16384.size a
  hwx0_4 : ∀ i : grid0.Coords, EltTy.bits .f32 = 32 ∨ (Rect.block (s := S16384x16384) S2048x256.size (cc0_transform_4 i) (hinb0_4 i)).WholeWords (EltTy.packing .f32)

variable [Facts₀]

def dot_S2048x4096_S256x4096_S2048x256_1_1_0_0_n_n : DotDims S2048x4096 S256x4096 S2048x256 where
  lhsContracting := [1]
  rhsContracting := [1]
  lhsNonContracting := [0]
  rhsNonContracting := [0]
  lhsBatch := []
  rhsBatch := []
  wf := dot_S2048x4096_S256x4096_S2048x256_1_1_0_0_n_n_wf

abbrev win0_0 : Pipeline.Window sig grid0 :=
  Pipeline.Window.ofSpec (Memref.whole main_v1) S2048x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S16384x4096 : Shape := ⟨2, ![16384, 4096]⟩
abbrev S16384 : Shape := ⟨1, ![16384]⟩
abbrev S16384x1 : Shape := ⟨2, ![16384, 1]⟩
abbrev S8x2048x16384 : Shape := ⟨3, ![8, 2048, 16384]⟩
abbrev S1x1x16384 : Shape := ⟨3, ![1, 1, 16384]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S16384x4096, .f32⟩
  | .hbm, ⟨5, _⟩ => ⟨S16384x1, .f32⟩
  | .hbm, ⟨6, _⟩ => ⟨S16384x4096, .f32⟩
  | .hbm, ⟨7, _⟩ => ⟨S16384x4096, .f32⟩
  | .hbm, ⟨8, _⟩ => ⟨S8x2048x16384, .f32⟩
  | .hbm, ⟨9, _⟩ => ⟨S1x1x16384, .f32⟩
  | .hbm, ⟨10, _⟩ => ⟨S8x2048x16384, .f32⟩
  | .hbm, ⟨11, _⟩ => ⟨S8x2048x16384, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S8x2048x16384_0_1_2 : S1x1x16384.BroadcastsInDim S8x2048x16384 (![0, 1, 2] : Fin 3 → Fin S8x2048x16384.rank)
  dot_S8x2048x4096_S16384x4096_S8x2048x16384_2_1_01_0_n_n_wf : DotDims.WF S8x2048x4096 S16384x4096 S8x2048x16384 [2] [1] [0, 1] [0] [] []

variable [Facts₀]

def dot_S8x2048x4096_S16384x4096_S8x2048x16384_2_1_01_0_n_n : DotDims S8x2048x4096 S16384x4096 S8x2048x16384 where
  lhsContracting := [2]
  rhsContracting := [1]
  lhsNonContracting := [0, 1]
  rhsNonContracting := [0]
  lhsBatch := []
  rhsBatch := []
  wf := dot_S8x2048x4096_S16384x4096_S8x2048x16384_2_1_01_0_n_n_wf

class Facts : Prop extends Facts₀ where

variable [Facts]
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.Payload.lean ====
/-
  What the kernel body stores, read at one entry.

  At a grid point the body holds a block of 2048 merged rows of the activations (all 4096 inputs), a block of 256
  weight rows (integers), those rows' 256 scales as a column, and their 256 biases as a row. It converts the
  integers, multiplies each weight row by its scale, contracts the input axis of BOTH operands against a zero
  accumulator, and adds the bias row to every row. So entry (p, q) of the stored block is

      (∑ k < 4096, xblk(p, k) · (int(wblk(q, k)) · sblk(q, 0))) + bblk(0, q).

  At the extended reals the two changes of float format on the way are the identity and the contraction is the plain
  finite sum, so the equation is a reading of the body's term, one operation at a time.
-/
import proofs.«110001_j15006615734457_1_alg».proof.Proof.Gen.KernelIdeal.Skeleton
import proofs.«110001_j15006615734457_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Idealize.ShloMosaic.ValueLayout

/-! ## The contraction's operand indices, axis by axis

The contraction takes its left operand's axis 1 and its right operand's axis 1; each operand's axis 0 survives, the
left one as the result's axis 0 and the right one as the result's axis 1. -/

theorem lhs_axis0 (j : S2048x256.Idx) (q : dot_S2048x4096_S256x4096_S2048x256_1_1_0_0_n_n.contr.Idx) :
    (dot_S2048x4096_S256x4096_S2048x256_1_1_0_0_n_n.lhsIdx j q 0).val = (j 0).val := by
  unfold DotDims.lhsIdx
  rw [dif_neg (show ¬(0 : Fin S2048x4096.rank) ∈ dot_S2048x4096_S256x4096_S2048x256_1_1_0_0_n_n.lhsBatch by decide),
    dif_pos (show (0 : Fin S2048x4096.rank) ∈ dot_S2048x4096_S256x4096_S2048x256_1_1_0_0_n_n.lhsNonContracting by decide)]
  rfl
theorem lhs_axis1 (j : S2048x256.Idx) (q : dot_S2048x4096_S256x4096_S2048x256_1_1_0_0_n_n.contr.Idx) :
    (dot_S2048x4096_S256x4096_S2048x256_1_1_0_0_n_n.lhsIdx j q 1).val = (q ⟨0, by decide⟩).val :=
  dot_S2048x4096_S256x4096_S2048x256_1_1_0_0_n_n.lhsIdx_val_of_single rfl j q
theorem rhs_axis0 (j : S2048x256.Idx) (q : dot_S2048x4096_S256x4096_S2048x256_1_1_0_0_n_n.contr.Idx) :
    (dot_S2048x4096_S256x4096_S2048x256_1_1_0_0_n_n.rhsIdx j q 0).val = (j 1).val := by
  unfold DotDims.rhsIdx
  rw [dif_neg (show ¬(0 : Fin S256x4096.rank) ∈ dot_S2048x4096_S256x4096_S2048x256_1_1_0_0_n_n.rhsBatch by decide),
    dif_pos (show (0 : Fin S256x4096.rank) ∈ dot_S2048x4096_S256x4096_S2048x256_1_1_0_0_n_n.rhsNonContracting by decide)]
  rfl
theorem rhs_axis1 (j : S2048x256.Idx) (q : dot_S2048x4096_S256x4096_S2048x256_1_1_0_0_n_n.contr.Idx) :
    (dot_S2048x4096_S256x4096_S2048x256_1_1_0_0_n_n.rhsIdx j q 1).val = (q ⟨0, by decide⟩).val :=
  dot_S2048x4096_S256x4096_S2048x256_1_1_0_0_n_n.rhsIdx_val_of_single rfl j q

/-- The contraction into the zero accumulator at (p, q): the sum over the shared input axis of the left operand's row
    p times the right operand's row q. -/
theorem contract_apply (l : FVec Ideal S2048x4096 .bf16) (r : FVec Ideal S256x4096 .bf16) (p : Fin 2048) (q : Fin 256) :
    matmul dot_S2048x4096_S256x4096_S2048x256_1_1_0_0_n_n none l r (constant (F := Ideal) S2048x256 .f32 0x00000000#32) (ix2 p q)
      = ∑ k : Fin 4096, l (ix2 p k) * r (ix2 q k) := by
  refine (Ideal.matmul_constant_zero_apply dot_S2048x4096_S256x4096_S2048x256_1_1_0_0_n_n none l r (ix2 p q)).trans ?_
  rw [← Equiv.sum_comp (ValueIdx.contrEquiv1 dot_S2048x4096_S256x4096_S2048x256_1_1_0_0_n_n 4096 rfl rfl).symm]
  refine Finset.sum_congr rfl fun k _ => ?_
  have hk := ValueIdx.contrEquiv1_symm_val dot_S2048x4096_S256x4096_S2048x256_1_1_0_0_n_n 4096 rfl rfl k
  have el : dot_S2048x4096_S256x4096_S2048x256_1_1_0_0_n_n.lhsIdx (ix2 p q)
      ((ValueIdx.contrEquiv1 dot_S2048x4096_S256x4096_S2048x256_1_1_0_0_n_n 4096 rfl rfl).symm k) = ix2 p k :=
    funext fun a => Fin.ext (by
      match a with
      | ⟨0, _⟩ => exact lhs_axis0 _ _
      | ⟨1, _⟩ => exact (lhs_axis1 _ _).trans hk)
  have er : dot_S2048x4096_S256x4096_S2048x256_1_1_0_0_n_n.rhsIdx (ix2 p q)
      ((ValueIdx.contrEquiv1 dot_S2048x4096_S256x4096_S2048x256_1_1_0_0_n_n 4096 rfl rfl).symm k) = ix2 q k :=
    funext fun a => Fin.ext (by
      match a with
      | ⟨0, _⟩ => exact rhs_axis0 _ _
      | ⟨1, _⟩ => exact (rhs_axis1 _ _).trans hk)
  rw [el, er]

/-- The scaled weight block at (q, k): the integer, read signed, times its row's scale. -/
theorem scaled_apply (w : Vec Ideal S256x4096 .i32) (sc : Vec Ideal S256x1 .f32) (q : Fin 256) (k : Fin 4096) :
    (truncf .bf16 (mulf (sitofp (F := Ideal) .f32 w)
        (broadcastTo S256x4096 (shapeCast S256x1 sc shapeCasts_S256x1_S256x1) broadcasts_S256x1_S256x4096)) bitsLt_bf16_f32
      : FVec Ideal S256x4096 .bf16) (ix2 q k)
      = FloatOps.sitofp (F := Ideal) .f32 (w (ix2 q k)) * sc (ix2 q (0 : Fin 1)) := by
  rw [truncf_apply, mulf_apply, sitofp_apply, shapeCast_self,
    broadcastTo_a1_ab_apply (by decide) sc broadcasts_S256x1_S256x4096 q k]

/-- THE STORED BLOCK at (p, q). -/
theorem stored_apply (xb : Vec Ideal S2048x4096 .bf16) (wb : Vec Ideal S256x4096 .i32) (sb : Vec Ideal S256x1 .f32)
    (bb : Vec Ideal S1x256 .f32) (p : Fin 2048) (q : Fin 256) :
    k0_pay1 (F := Ideal) xb wb sb bb (ix2 p q)
      = (∑ k : Fin 4096, xb (ix2 p k) * (FloatOps.sitofp (F := Ideal) .f32 (wb (ix2 q k)) * sb (ix2 q (0 : Fin 1))))
        + bb (ix2 (0 : Fin 1) q) := by
  unfold k0_pay1
  rw [addf_apply, contract_apply, shapeCast_self xb, shapeCast_self bb,
    broadcastTo_1b_ab_apply bb broadcasts_S1x256_S2048x256 p q]
  refine congrArg (· + bb (ix2 (0 : Fin 1) q)) (Finset.sum_congr rfl fun k _ => ?_)
  rw [scaled_apply]

end Cert.KernelIdeal.Block

end
-- ==== Proof.Spec.lean ====
/-
  The quantised linear layer as ONE function of its four argument arrays, over the extended reals.

  The arguments: activations `x` of shape [8, 2048, 4096]; a weight matrix stored as 32-bit integers, [16384, 4096];
  one scale per output row, [16384]; one bias per output row, [16384]. Entry (b, s, o) of the result is

      (∑ k < 4096, x(b, s, k) · (int(wq(o, k)) · scale(o))) + bias(o),

  the integer read signed and exactly. `layer` is that function. `flat` is the same sum over the activations laid
  out as a [16384, 4096] matrix whose row r = b · 2048 + s, the scales as a column [16384, 1] and the biases as a
  row [1, 16384], with result [16384, 16384]: the arrangement a kernel tiling rows and columns works on.
  `flat_reshape`: on the re-laid arguments, and re-laid back to [8, 2048, 16384], `flat` is `layer`. A reshape
  keeps row-major positions, so the law is coordinate arithmetic only; no property of the extended reals' sum or
  product is used, and no argument needs to be finite.
-/
import Idealize.ShloMosaic.PureOps.Ideal
import Idealize.ShloMosaic.Lib.ValueIdx
import Idealize.ShloMosaic.Lib.ValueLayout
import Idealize.ShloMosaic.Lib.Pipeline.Value
import proofs.«110001_j15006615734457_1_alg».proof.Proof.LibColumn

noncomputable section

namespace Cert.QuantLinear

open Idealize.ShloMosaic Idealize.ShloMosaic.ValueIdx Idealize.ShloMosaic.ValueLayout

/-- Activations, [batch, sequence, in]. -/
abbrev SAct : Shape := ⟨3, ![8, 2048, 4096]⟩
/-- The weight matrix, [out, in]; also the activations with batch and sequence merged into one row axis. -/
abbrev SMat : Shape := ⟨2, ![16384, 4096]⟩
/-- One value per output row. -/
abbrev SRow : Shape := ⟨1, ![16384]⟩
/-- The same as a column. -/
abbrev SCol : Shape := ⟨2, ![16384, 1]⟩
/-- The same as a single row. -/
abbrev SLane : Shape := ⟨2, ![1, 16384]⟩
/-- The result with batch and sequence merged. -/
abbrev SOutFlat : Shape := ⟨2, ![16384, 16384]⟩
/-- The result, [batch, sequence, out]. -/
abbrev SOut : Shape := ⟨3, ![8, 2048, 16384]⟩

/-- The result's entry (b, s, o). -/
def layerAt (x : SAct.Idx → EReal) (wq : SMat.Idx → BitVec 32) (sc bs : SRow.Idx → EReal)
    (b : Fin 8) (s : Fin 2048) (o : Fin 16384) : EReal :=
  (∑ k : Fin 4096, x (ix3 b s k) * (FloatOps.sitofp (F := Ideal) .f32 (wq (ix2 o k)) * sc (ix1 o))) + bs (ix1 o)

/-- The layer. -/
def layer (x : SAct.Idx → EReal) (wq : SMat.Idx → BitVec 32) (sc bs : SRow.Idx → EReal) : SOut.Idx → EReal :=
  fun i => layerAt x wq sc bs (i 0) (i 1) (i 2)

/-- Entry (r, o) of the flattened result, from flattened activations, a scale column and a bias row. -/
def flatAt (X : SMat.Idx → EReal) (wq : SMat.Idx → BitVec 32) (SC : SCol.Idx → EReal) (B : SLane.Idx → EReal)
    (r : Fin 16384) (o : Fin 16384) : EReal :=
  (∑ k : Fin 4096, X (ix2 r k) * (FloatOps.sitofp (F := Ideal) .f32 (wq (ix2 o k)) * SC (ix2 o (0 : Fin 1))))
    + B (ix2 (0 : Fin 1) o)

/-- The flattened layer. -/
def flat (X : SMat.Idx → EReal) (wq : SMat.Idx → BitVec 32) (SC : SCol.Idx → EReal) (B : SLane.Idx → EReal) :
    SOutFlat.Idx → EReal :=
  fun j => flatAt X wq SC B (j 0) (j 1)

/-- Row b · 2048 + s of the merged axis. -/
def mergedRow (b : Fin 8) (s : Fin 2048) : Fin 16384 := ⟨b.val * 2048 + s.val, by have := b.isLt; have := s.isLt; omega⟩

/-- The activations merged to a matrix read, at row b · 2048 + s, the activations at (b, s). -/
theorem merge_act_apply {α : Type} (x : SAct.Idx → α) (h : SAct.ShapeCasts SMat) (b : Fin 8) (s : Fin 2048) (k : Fin 4096) :
    shapeCast SMat x h (ix2 (mergedRow b s) k) = x (ix3 b s k) :=
  shapeCast_apply x h _ _ (by
    rw [Shape.rowMajor_val_three, Shape.rowMajor_val_two]
    show (b.val * 2048 + s.val) * 4096 + k.val = (b.val * 2048 + s.val) * 4096 + k.val
    rfl)

/-- The flattened result split back to [batch, sequence, out] reads, at (b, s, o), row b · 2048 + s. -/
theorem split_out_apply {α : Type} (y : SOutFlat.Idx → α) (h : SOutFlat.ShapeCasts SOut) (b : Fin 8) (s : Fin 2048) (o : Fin 16384) :
    shapeCast SOut y h (ix3 b s o) = y (ix2 (mergedRow b s) o) :=
  shapeCast_apply y h _ _ (by
    rw [Shape.rowMajor_val_three, Shape.rowMajor_val_two]
    show (b.val * 2048 + s.val) * 16384 + o.val = (b.val * 2048 + s.val) * 16384 + o.val
    rfl)

/-- THE RESHAPE LAW: the flattened layer of the re-laid arguments, split back, is the layer. -/
theorem flat_reshape (x : SAct.Idx → EReal) (wq : SMat.Idx → BitVec 32) (sc bs : SRow.Idx → EReal)
    (h1 : SAct.ShapeCasts SMat) (h2 : SRow.ShapeCasts SCol) (h3 : SRow.ShapeCasts SLane) (h4 : SOutFlat.ShapeCasts SOut) :
    shapeCast SOut (flat (shapeCast SMat x h1) wq (shapeCast SCol sc h2) (shapeCast SLane bs h3)) h4 = layer x wq sc bs := by
  funext i
  obtain ⟨b, s, o, rfl⟩ : ∃ (b : Fin 8) (s : Fin 2048) (o : Fin 16384), i = ix3 b s o := ⟨i 0, i 1, i 2, eq_ix3 i⟩
  rw [split_out_apply]
  show flatAt _ wq _ _ (mergedRow b s) o = layerAt x wq sc bs b s o
  unfold flatAt layerAt
  rw [shapeCast_a_a1_apply sc h2 o (0 : Fin 1), shapeCast_a_1a_apply bs h3 (0 : Fin 1) o]
  refine congrArg (· + bs (ix1 o)) (Finset.sum_congr rfl fun k _ => ?_)
  rw [merge_act_apply x h1 b s k]

end Cert.QuantLinear

end
-- ==== Proof.KernelValue.lean ====
/-
  What the kernel leaves in its result array: the layer of its arguments.

  Before the grid runs, the host lays the activations out as a matrix of 16384 merged rows (row b · 2048 + s), the
  scales as a column and the biases as a row. The grid has 8 × 64 points; point (g, h) works on merged rows
  2048 g … 2048 g + 2047 and output rows 256 h … 256 h + 255: it reads that row block of the activations (all inputs),
  that row block of the integer weights, of the scale column and of the bias row, and writes block (g, h) of the
  [16384, 16384] result. What it writes at (p, q) of its block is the flattened layer's entry
  (2048 g + p, 256 h + q): each block it reads sits in its array exactly where the written entry's row and column say.
  The 512 blocks tile the result, so after the grid the whole array is the flattened layer of the re-laid
  arguments; the host then splits the merged axis again, and by the reshape law the result is the layer.
-/
import proofs.«110001_j15006615734457_1_alg».proof.Proof.Gen.KernelIdeal.Frame
import proofs.«110001_j15006615734457_1_alg».proof.Proof.Payload
import proofs.«110001_j15006615734457_1_alg».proof.Proof.Spec
import Idealize.ShloMosaic.Lib.Pipeline.Value
import Idealize.ShloMosaic.Lib.StableHlo.Run

set_option maxRecDepth 16384

noncomputable section

namespace Cert.KernelIdeal.LayerValue

open Cert.KernelIdeal Cert.KernelIdeal.Gen Idealize.ShloMosaic Idealize.ShloMosaic.TcCoe Idealize.SL.Sem
open Idealize.ShloMosaic.ValueIdx Idealize.ShloMosaic.ValueLayout Idealize.ShloMosaic.StableHlo
open Idealize.ShloMosaic.Pipeline (Dat Cfg Window)
open Cert.QuantLinear

variable (m : (ℓ : Loc nD τ sig) → Buf (Elt Ideal) ℓ) (ρ : Dev nD → PrngReg)

/-! ## The arrays as the grid finds them -/

/-- The activations, merged to a matrix (the change of float format is the identity on extended reals). -/
theorem entry_act (c : Dev nD) : (V m c main_v1 : S16384x4096.Idx → EReal)
    = shapeCast S16384x4096 (m ((c : Thread nD τ).loc main_arg0)) shapeCasts_S8x2048x4096_S16384x4096 := by
  show StableHlo.after hostOps0 (fun b => m (c, b)) (Proc.devRef .tc main_v1) = _
  after_results
  rfl

/-- The scales, as a column. -/
theorem entry_scale (c : Dev nD) : (V m c main_v2 : S16384x1.Idx → EReal)
    = shapeCast S16384x1 (m ((c : Thread nD τ).loc main_arg2)) shapeCasts_S16384_S16384x1 := by
  show StableHlo.after hostOps0 (fun b => m (c, b)) (Proc.devRef .tc main_v2) = _
  after_results
  rfl

/-- The biases, as a row. -/
theorem entry_bias (c : Dev nD) : (V m c main_v3 : S1x16384.Idx → EReal)
    = shapeCast S1x16384 (m ((c : Thread nD τ).loc main_arg3)) shapeCasts_S16384_S1x16384 := by
  show StableHlo.after hostOps0 (fun b => m (c, b)) (Proc.devRef .tc main_v3) = _
  after_results
  rfl

/-! ## Where each point's blocks sit -/

/-- The block indices over the grid: point t is (t / 64, t % 64); the activations' block follows the first
    coordinate, the weights', scales' and biases' blocks the second, and the result's block both. -/
theorem block_indices : ∀ t : Fin cfg0.N,
    win0_4.index t (0 : Fin 2) = t.val / 64 ∧ win0_4.index t (1 : Fin 2) = t.val % 64
    ∧ win0_4.index t (0 : Fin 2) < 8 ∧ win0_4.index t (1 : Fin 2) < 64
    ∧ win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (1 : Fin 2) ∧ win0_2.index t (1 : Fin 2) = 0
    ∧ win0_3.index t (0 : Fin 2) = 0 ∧ win0_3.index t (1 : Fin 2) = win0_4.index t (1 : Fin 2) :=
  (by decide +kernel : ∀ t : Fin grid0.N, _)

/-- Row p of the point's activation block is merged row 2048 g + p of the matrix. -/
theorem act_block (c : Dev nD) (t : Fin cfg0.N) (p : Fin 2048) (k : Fin 4096) (r : Fin 16384)
    (hr : r.val = win0_4.index t (0 : Fin 2) * 2048 + p.val) :
    iblk m c 0 t (ix2 p k) = V m c main_v1 (ix2 r k) := by
  obtain ⟨-, -, -, -, e0, e1, -⟩ := block_indices t
  show V m c main_v1 (((cfg0.win 0).blk t).view.emb (ix2 p k)) = _
  refine congrArg _ (funext fun a => Fin.ext ?_)
  match a with
  | ⟨0, _⟩ => show win0_0.index t (0 : Fin 2) * 2048 + 1 * p.val = r.val; omega
  | ⟨1, _⟩ => show win0_0.index t (1 : Fin 2) * 4096 + 1 * k.val = k.val; omega

/-- Row q of the point's weight block is output row 256 h + q. -/
theorem weight_block (c : Dev nD) (t : Fin cfg0.N) (q : Fin 256) (k : Fin 4096) (o : Fin 16384)
    (ho : o.val = win0_4.index t (1 : Fin 2) * 256 + q.val) :
    iblk m c 1 t (ix2 q k) = V m c main_arg1 (ix2 o k) := by
  obtain ⟨-, -, -, -, -, -, e0, e1, -⟩ := block_indices t
  show V m c main_arg1 (((cfg0.win 1).blk t).view.emb (ix2 q k)) = _
  refine congrArg _ (funext fun a => Fin.ext ?_)
  match a with
  | ⟨0, _⟩ => show win0_1.index t (0 : Fin 2) * 256 + 1 * q.val = o.val; omega
  | ⟨1, _⟩ => show win0_1.index t (1 : Fin 2) * 4096 + 1 * k.val = k.val; omega

/-- Entry q of the point's scale block is output row 256 h + q of the column. -/
theorem scale_block (c : Dev nD) (t : Fin cfg0.N) (q : Fin 256) (o : Fin 16384)
    (ho : o.val = win0_4.index t (1 : Fin 2) * 256 + q.val) :
    iblk m c 2 t (ix2 q (0 : Fin 1)) = V m c main_v2 (ix2 o (0 : Fin 1)) := by
  obtain ⟨-, -, -, -, -, -, -, -, e0, e1, -⟩ := block_indices t
  show V m c main_v2 (((cfg0.win 2).blk t).view.emb (ix2 q (0 : Fin 1))) = _
  refine congrArg _ (funext fun a => Fin.ext ?_)
  match a with
  | ⟨0, _⟩ => show win0_2.index t (0 : Fin 2) * 256 + 1 * q.val = o.val; omega
  | ⟨1, _⟩ => show win0_2.index t (1 : Fin 2) * 1 + 1 * 0 = 0; omega

/-- Entry q of the point's bias block is output row 256 h + q of the row. -/
theorem bias_block (c : Dev nD) (t : Fin cfg0.N) (q : Fin 256) (o : Fin 16384)
    (ho : o.val = win0_4.index t (1 : Fin 2) * 256 + q.val) :
    iblk m c 3 t (ix2 (0 : Fin 1) q) = V m c main_v3 (ix2 (0 : Fin 1) o) := by
  obtain ⟨-, -, -, -, -, -, -, -, -, -, e0, e1⟩ := block_indices t
  show V m c main_v3 (((cfg0.win 3).blk t).view.emb (ix2 (0 : Fin 1) q)) = _
  refine congrArg _ (funext fun a => Fin.ext ?_)
  match a with
  | ⟨0, _⟩ => show win0_3.index t (0 : Fin 2) * 1 + 1 * 0 = 0; omega
  | ⟨1, _⟩ => show win0_3.index t (1 : Fin 2) * 256 + 1 * q.val = o.val; omega

/-! ## What a point writes back -/

/-- The flattened layer of the arrays as the grid finds them. -/
abbrev flatOf (c : Dev nD) : S16384x16384.Idx → EReal :=
  flat (V m c main_v1) (V m c main_arg1) (V m c main_v2) (V m c main_v3)

/-- The body's stored block at point t, entry by entry, is the flattened layer read through the result's block. -/
theorem stored_eq (c : Dev nD) (t : Fin cfg0.N) (j : S2048x256.Idx) :
    k0_pay1 (F := Ideal) (iblk m c 0 t) (iblk m c 1 t) (iblk m c 2 t) (iblk m c 3 t) j
      = flatOf m c (((cfg0.win 4).blk t).view.emb j) := by
  obtain ⟨p, q, rfl⟩ : ∃ (p : Fin 2048) (q : Fin 256), j = ix2 p q := ⟨j 0, j 1, eq_ix2 j⟩
  obtain ⟨-, -, b0, b1, -⟩ := block_indices t
  have hr : win0_4.index t (0 : Fin 2) * 2048 + p.val < 16384 := by have := p.isLt; omega
  have ho : win0_4.index t (1 : Fin 2) * 256 + q.val < 16384 := by have := q.isLt; omega
  have epos : ((cfg0.win 4).blk t).view.emb (ix2 p q) = ix2 (⟨_, hr⟩ : Fin 16384) (⟨_, ho⟩ : Fin 16384) :=
    funext fun a => Fin.ext (by
      match a with
      | ⟨0, _⟩ => show win0_4.index t (0 : Fin 2) * 2048 + 1 * p.val = win0_4.index t (0 : Fin 2) * 2048 + p.val; omega
      | ⟨1, _⟩ => show win0_4.index t (1 : Fin 2) * 256 + 1 * q.val = win0_4.index t (1 : Fin 2) * 256 + q.val; omega)
  rw [epos]
  refine (Block.stored_apply (iblk m c 0 t) (iblk m c 1 t) (iblk m c 2 t) (iblk m c 3 t) p q).trans ?_
  show _ = flatAt (V m c main_v1) (V m c main_arg1) (V m c main_v2) (V m c main_v3) ⟨_, hr⟩ ⟨_, ho⟩
  unfold flatAt
  rw [bias_block m c t q ⟨_, ho⟩ rfl, scale_block m c t q ⟨_, ho⟩ rfl]
  refine congrArg (· + _) (Finset.sum_congr rfl fun k _ => ?_)
  rw [act_block m c t p k ⟨_, hr⟩ rfl, weight_block m c t q k ⟨_, ho⟩ rfl]

theorem offsets_zero : (![0, 0] : Fin 2 → Nat) = fun _ => 0 := funext fun a => by fin_cases a <;> rfl

/-- WHAT POINT t WRITES BACK is block t of the flattened layer. -/
theorem flushed_eq (c : Dev nD) (t : Fin cfg0.N) :
    (dats m 0 c).flushed 4 t = ((cfg0.win 4).blk t).view.read (Elt Ideal) (flatOf m c) := by
  show (cfg0.win 4).cut (grid0.coords t) ((dats m 0 c).after 4 t) = _
  rw [after0_4]
  unfold out0_4
  rw [View.canon_unit_zero offsets_zero]
  simp only [View.ld_unit_zero (S := S2048x4096) offsets_zero, View.ld_unit_zero (S := S256x4096) offsets_zero,
    View.ld_unit_zero (S := S256x1) offsets_zero, View.ld_unit_zero (S := S1x256) offsets_zero]
  funext j
  exact stored_eq m c t j

/-! ## The blocks tile the result -/

/-- An index of the result is in point t's block iff each coordinate is in the block's range on its axis. -/
theorem mem_block (t : Fin cfg0.N) (i : S16384x16384.Idx) :
    i ∈ ((cfg0.win 4).blk t).view.set ↔ ∀ a : Fin 2, win0_4.index t a * S2048x256.size a ≤ (i a).val
      ∧ (i a).val < win0_4.index t a * S2048x256.size a + S2048x256.size a := by
  show i ∈ ((View.whole main_v4).slice (win0_4.rect t)).set ↔ _
  rw [View.set_slice_whole, Rect.mem_set_unit]
  exact Iff.rfl

/-- Entry (r, o) is in the block of point (r / 2048, o / 256). -/
theorem covered (i : S16384x16384.Idx) :
    ∃ t : Fin cfg0.N, (cfg0.win 4).flush t = true ∧ i ∈ ((cfg0.win 4).blk t).view.set := by
  have hi0 : (i 0).val < 16384 := (i 0).isLt
  have hi1 : (i 1).val < 16384 := (i 1).isLt
  have hN : cfg0.N = 512 := N_0
  have ht : (i 0).val / 2048 * 64 + (i 1).val / 256 < cfg0.N := by rw [hN]; omega
  refine ⟨⟨_, ht⟩, flush0_4 _, ?_⟩
  obtain ⟨e0, e1, -⟩ := block_indices ⟨_, ht⟩
  rw [mem_block]
  intro a
  match a with
  | ⟨0, _⟩ =>
    show win0_4.index ⟨_, ht⟩ (0 : Fin 2) * 2048 ≤ (i 0).val ∧ (i 0).val < win0_4.index ⟨_, ht⟩ (0 : Fin 2) * 2048 + 2048
    rw [e0]; show ((i 0).val / 2048 * 64 + (i 1).val / 256) / 64 * 2048 ≤ _ ∧ _ < ((i 0).val / 2048 * 64 + (i 1).val / 256) / 64 * 2048 + 2048
    omega
  | ⟨1, _⟩ =>
    show win0_4.index ⟨_, ht⟩ (1 : Fin 2) * 256 ≤ (i 1).val ∧ (i 1).val < win0_4.index ⟨_, ht⟩ (1 : Fin 2) * 256 + 256
    rw [e1]; show ((i 0).val / 2048 * 64 + (i 1).val / 256) % 64 * 256 ≤ _ ∧ _ < ((i 0).val / 2048 * 64 + (i 1).val / 256) % 64 * 256 + 256
    omega

/-- THE RESULT ARRAY after the grid: the flattened layer. -/
theorem final (c : Dev nD) : (dats m 0 c).arrAt 4 cfg0.N = flatOf m c :=
  (dats m 0 c).arrAt_eq_of_cover 4 (flatOf m c) (fun t _ => flushed_eq m c t) covered

/-! ## The host's last line, and the run -/

/-- The flattened layer of the re-laid arguments, split back, is the layer of the arguments. -/
theorem split_flat (c : Dev nD) :
    shapeCast S8x2048x16384 (flatOf m c) shapeCasts_S16384x16384_S8x2048x16384
      = layer (m ((c : Thread nD τ).loc main_arg0)) (m ((c : Thread nD τ).loc main_arg1))
          (m ((c : Thread nD τ).loc main_arg2)) (m ((c : Thread nD τ).loc main_arg3)) := by
  unfold flatOf
  rw [entry_act, entry_scale, entry_bias, V_main_arg1]
  exact flat_reshape _ _ _ _ _ _ _ _

/-- After the host's last line the result buffer holds the layer. -/
theorem tail_eq (c : Dev nD) :
    Pipeline.afterTail₀ cfgs (dats m) 0 (V0 m) [hostOps1] c main_v5
      = layer (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v5) = _
  after_results
  have hw : (Pipeline.withArrays (cfgs 0).spec c (V0 m c) (fun w => (dats m 0 c).arrAt w (cfgs 0).N)
      (Proc.devRef .tc main_v4) : S16384x16384.Idx → EReal) = flatOf m c :=
    (Pipeline.withArrays_arr spec0 launch0.win.arr_inj c _ _ 4).trans (final m c)
  rw [hw]
  exact split_flat m c

/-- THE RUN: every weakly fair execution ends with the result at the layer of the arguments, the arguments unchanged. -/
theorem run : θ_run defs (onTc (τ := τ) (main (F := Ideal))) ⟨m, fun _ => 0, ρ⟩ fun r => ∀ c : Dev nD,
      r.2.mem ((c.tc : Thread nD τ).loc main_v5)
        = layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.LayerValue

end
-- ==== Proof.RefValue.lean ====
/-
  The reference computes the layer.

  The reference converts the integer weights, spreads each output row's scale along that row, multiplies, contracts
  the activations' input axis with the scaled weights' input axis, and adds each output row's bias along the batch
  and sequence axes. Read at entry (b, s, o), one operation at a time, that is

      (∑ k < 4096, x(b, s, k) · (int(wq(o, k)) · scale(o))) + bias(o):

  the layer's entry, term for term. Only the index functions the operations compose have to be recognised as the
  coordinates (b, s, k), (o, k) and o.
-/
import proofs.«110001_j15006615734457_1_alg».proof.Proof.Gen.ReferenceIdeal.Read
import proofs.«110001_j15006615734457_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.QuantLinear

/-- The reference's result, as a function of its arguments, is the layer. -/
theorem result_eq_layer (x0 : (⟨S8x2048x4096, .f32⟩ : BufTy).Contents (Elt Ideal)) (x1 : (⟨S16384x4096, .i32⟩ : BufTy).Contents (Elt Ideal))
    (x2 x3 : (⟨S16384, .f32⟩ : BufTy).Contents (Elt Ideal)) :
    val_main_v7 (F := Ideal) x0 x1 x2 x3 = layer x0 x1 x2 x3 := by
  funext i
  obtain ⟨b, s, o, rfl⟩ : ∃ (b : Fin 8) (s : Fin 2048) (o : Fin 16384), i = ix3 b s o := ⟨i 0, i 1, i 2, eq_ix3 i⟩
  rw [val_main_v7_apply, val_main_v4_apply, val_main_v6_apply, val_main_v5_apply]
  -- the bias: the two broadcasts read the bias vector at the output coordinate
  have eb : idx_main_v5 (idx_main_v6 (ix3 b s o)) = ix1 o :=
    funext fun a => Fin.ext (by match a with | ⟨0, _⟩ => rfl)
  rw [eb]
  show (∑ k : Fin 4096, x0 (lidx_main_v4 (ix3 b s o) k) * val_main_v3 (F := Ideal) x1 x2 (ridx_main_v4 (ix3 b s o) k)) + x3 (ix1 o)
    = layerAt x0 x1 x2 x3 b s o
  unfold layerAt
  refine congrArg (· + x3 (ix1 o)) (Finset.sum_congr rfl fun k _ => ?_)
  -- the contraction reads the activations at (b, s, k) and the scaled weights at (o, k)
  have el : lidx_main_v4 (ix3 b s o) k = ix3 b s k :=
    funext fun a => Fin.ext (by match a with | ⟨0, _⟩ => rfl | ⟨1, _⟩ => rfl | ⟨2, _⟩ => rfl)
  have er : ridx_main_v4 (ix3 b s o) k = ix2 o k :=
    funext fun a => Fin.ext (by match a with | ⟨0, _⟩ => rfl | ⟨1, _⟩ => rfl)
  rw [el, er, val_main_v3_apply, val_main_v0_apply, val_main_v2_apply, val_main_v1_apply]
  -- the scale: the two broadcasts read the scale vector at the weight's row
  have es : idx_main_v1 (idx_main_v2 (ix2 o k)) = ix1 o :=
    funext fun a => Fin.ext (by match a with | ⟨0, _⟩ => rfl)
  rw [es]
  rfl

end Cert.ReferenceIdeal.RefValue

end
-- ==== Proof.lean ====
/- A quantised linear layer: a kernel tiling the [16384, 16384] flattened result in 2048 × 256 blocks, against the
   plain formula. Both compute, at entry (b, s, o),

       (∑ k < 4096, x(b, s, k) · (int(wq(o, k)) · scale(o))) + bias(o)

   over the extended reals: the same products in the same order of factors, one finite sum, one addition. The kernel's
   change of float format on the activations and on the scaled weights is the identity there, its contraction into a
   zero accumulator is the plain sum, and its tiling and the host's merging and splitting of the batch and sequence
   axes only move entries. So no law of the extended reals beyond reading both terms is needed, and the finiteness of
   the inputs is never used.

   Proof/Spec.lean states the layer and its flattened form and proves the reshape law between them;
   Proof/Payload.lean reads the kernel body's stored block at an entry; Proof/KernelValue.lean carries that through the
   grid's blocks and the host's first and last lines to the kernel's result; Proof/RefValue.lean reads the reference's
   operations at an entry. Here the claims are assembled: the kernel's two frames are its generated ones, the
   reference's is its run with the result dropped, the idealization rewrote nothing, and the two runs end at the one
   function `layer` of arguments that agree. -/
import proofs.«110001_j15006615734457_1_alg».proof.Defs
import proofs.«110001_j15006615734457_1_alg».proof.Proof.Gen.Kernel
import proofs.«110001_j15006615734457_1_alg».proof.Proof.Gen.Kernel.Skeleton
import proofs.«110001_j15006615734457_1_alg».proof.Proof.Gen.Kernel.Launch
import proofs.«110001_j15006615734457_1_alg».proof.Proof.Gen.Kernel.Points
import proofs.«110001_j15006615734457_1_alg».proof.Proof.Gen.Kernel.Frame
import proofs.«110001_j15006615734457_1_alg».proof.Proof.Gen.KernelIdeal
import proofs.«110001_j15006615734457_1_alg».proof.Proof.Gen.KernelIdeal.Skeleton
import proofs.«110001_j15006615734457_1_alg».proof.Proof.Gen.KernelIdeal.Launch
import proofs.«110001_j15006615734457_1_alg».proof.Proof.Gen.KernelIdeal.Points
import proofs.«110001_j15006615734457_1_alg».proof.Proof.Gen.KernelIdeal.Frame
import proofs.«110001_j15006615734457_1_alg».proof.Proof.Gen.ReferenceIdeal
import proofs.«110001_j15006615734457_1_alg».proof.Proof.Gen.Pre_finite_inputs
import proofs.«110001_j15006615734457_1_alg».proof.Proof.Gen.ReferenceIdeal.Run
import proofs.«110001_j15006615734457_1_alg».proof.Proof.Gen.ReferenceIdeal.Read
import proofs.«110001_j15006615734457_1_alg».proof.Proof.KernelValue
import proofs.«110001_j15006615734457_1_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result and the reference's are the layer of those arguments. -/
theorem algebraic : Cert.algebraic_KernelIdeal_ReferenceIdeal := by
  intro m ρ m' ρ' _ hagree
  refine ⟨_, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
